-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S32x32x256 : Shape := ⟨3, ![32, 32, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S32x32x256 : S_.BroadcastsInDim S32x32x256 (![] : Fin 0 → Fin S32x32x256.rank)
  reducesTo_S32x32x256_S_d0_1_2 : S32x32x256.ReducesTo [0, 1, 2] S_

variable [Facts]

def fn {F : FTy → Type} [FloatOps F] (main_arg0 : FVec F S512x256 .f32) (main_arg1 : FVec F S32x32x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S32x32x256 .f32 := Host.absf main_arg1
  let main_cst_0 : FVec F S_ .f32 := constant S_ .f32 0x7F800000#32
  let main_v5 : FVec F S32x32x256 .f32 := broadcastInDim S32x32x256 ![] bcast_S_S32x32x256 main_cst_0
  let main_v6 : IVec S32x32x256 1 := cmpf .olt main_v4 main_v5
  let main_c_1 : IVec S_ 1 := constantI S_ 1 1#1
  let main_v7 : IVec S_ 1 := (fun x v => Host.reduce IntOp.andi x v reducesTo_S32x32x256_S_d0_1_2 h_S_) main_v6 main_c_1
  let main_v8 : IVec S_ 1 := andi main_v3 main_v7
  main_v8
-- ==== Kernel.lean ====
abbrev S512x256 : Shape := ⟨2, ![512, 256]⟩
abbrev S32x32x256 : Shape := ⟨3, ![32, 32, 256]⟩
abbrev S1024x256 : Shape := ⟨2, ![1024, 256]⟩
abbrev S512x1024 : Shape := ⟨2, ![512, 1024]⟩
abbrev S64x256 : Shape := ⟨2, ![64, 256]⟩
abbrev S64x1024 : Shape := ⟨2, ![64, 1024]⟩
abbrev S64 : Shape := ⟨1, ![64]⟩
abbrev S64x1 : Shape := ⟨2, ![64, 1]⟩
abbrev S1024 : Shape := ⟨1, ![1024]⟩
abbrev S1x1024 : Shape := ⟨2, ![1, 1024]⟩
abbrev S512x32x32 : Shape := ⟨3, ![512, 32, 32]⟩

abbrev nBuf : Space → Nat
  | .hbm => 5
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S32x32x256, .f32⟩
  | .hbm, ⟨2, _⟩ => ⟨S1024x256, .f32⟩
  | .hbm, ⟨3, _⟩ => ⟨S512x1024, .f32⟩
  | .hbm, ⟨4, _⟩ => ⟨S512x32x32, .f32⟩
  | .local _ .vmem, ⟨0, _⟩ => ⟨S64x256, .f32⟩
  | .local _ .vmem, ⟨1, _⟩ => ⟨S64x256, .f32⟩
  | .local _ .vmem, ⟨2, _⟩ => ⟨S1024x256, .f32⟩
  | .local _ .vmem, ⟨3, _⟩ => ⟨S64x1024, .f32⟩
  | .local _ .vmem, ⟨4, _⟩ => ⟨S64x1024, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x32x256_S1024x256 : S32x32x256.ShapeCasts S1024x256
  inb_S64x256_S64x256_0_0 : ∀ a, (![0, 0] : Fin 2 → Nat) a + S64x256.size a ≤ S64x256.size a
  h_S64x256 : 0 < S64x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S64x256_S64 : S64x256.Reduces [1] S64
  shapeCasts_S64_S64x1 : S64.ShapeCasts S64x1
  reduces_S1024x256_S1024 : S1024x256.Reduces [1] S1024
  shapeCasts_S1024_S1x1024 : S1024.ShapeCasts S1x1024
  bitsLt_bf16_f32 : FTy.bits .bf16 < FTy.bits .f32
  broadcasts_S64x1_S64x1024 : S64x1.Broadcasts S64x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  shapeCasts_S512x1024_S512x32x32 : S512x1024.ShapeCasts S512x32x32
  dot_S64x256_S1024x256_S64x1024_1_1_0_0_n_n_wf : DotDims.WF S64x256 S1024x256 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S512x256.size a
  hwx0_0 : ∀ i : grid0.Coords, EltTy.bits .f32 = 32 ∨ (Rect.block (s := S512x256) S64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S512x1024.size a
  hwx0_2 : ∀ i : grid0.Coords, EltTy.bits .f32 = 32 ∨ (Rect.block (s := S512x1024) S64x1024.size (cc0_transform_2 i) (hinb0_2 i)).WholeWords (EltTy.packing .f32)

variable [Facts₀]

def dot_S64x256_S1024x256_S64x1024_1_1_0_0_n_n : DotDims S64x256 S1024x256 S64x1024 where
  lhsContracting := [1]
  rhsContracting := [1]
  lhsNonContracting := [0]
  rhsNonContracting := [0]
  lhsBatch := []
  rhsBatch := []
  wf := dot_S64x256_S1024x256_S64x1024_1_1_0_0_n_n_wf

abbrev win0_0 : Pipeline.Window sig grid0 :=
  Pipeline.Window.ofSpec (Memref.whole main_arg0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x256 : Shape := ⟨2, ![512, 256]⟩
abbrev S32x32x256 : Shape := ⟨3, ![32, 32, 256]⟩
abbrev S512x1x1x256 : Shape := ⟨4, ![512, 1, 1, 256]⟩
abbrev S1x32x32x256 : Shape := ⟨4, ![1, 32, 32, 256]⟩
abbrev S512x32x32x256 : Shape := ⟨4, ![512, 32, 32, 256]⟩
abbrev S_ : Shape := ⟨0, ![]⟩
abbrev S512x32x32 : Shape := ⟨3, ![512, 32, 32]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S32x32x256, .f32⟩
  | .hbm, ⟨2, _⟩ => ⟨S512x1x1x256, .f32⟩
  | .hbm, ⟨3, _⟩ => ⟨S1x32x32x256, .f32⟩
  | .hbm, ⟨4, _⟩ => ⟨S512x32x32x256, .f32⟩
  | .hbm, ⟨5, _⟩ => ⟨S512x32x32x256, .f32⟩
  | .hbm, ⟨6, _⟩ => ⟨S512x32x32x256, .f32⟩
  | .hbm, ⟨7, _⟩ => ⟨S512x32x32x256, .f32⟩
  | .hbm, ⟨8, _⟩ => ⟨S_, .f32⟩
  | .hbm, ⟨9, _⟩ => ⟨S512x32x32, .f32⟩
  | .hbm, ⟨10, _⟩ => ⟨S512x32x32, .f32⟩
  | .hbm, ⟨11, _⟩ => ⟨S_, .f32⟩
  | .hbm, ⟨12, _⟩ => ⟨S512x32x32, .f32⟩
  | .hbm, ⟨13, _⟩ => ⟨S512x32x32, .f32⟩
  | .hbm, ⟨14, _⟩ => ⟨S512x32x32, .f32⟩
  | .hbm, ⟨15, _⟩ => ⟨S_, .f32⟩
  | .hbm, ⟨16, _⟩ => ⟨S512x32x32, .f32⟩
  | .hbm, ⟨17, _⟩ => ⟨S512x32x32, .f32⟩
  | .hbm, ⟨18, _⟩ => ⟨S_, .f32⟩
  | .hbm, ⟨19, _⟩ => ⟨S512x32x32, .f32⟩
  | .hbm, ⟨20, _⟩ => ⟨S512x32x32, .f32⟩
  | .hbm, ⟨21, _⟩ => ⟨S512x32x32, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S512x256_S512x1x1x256_0_3 : S512x256.BroadcastsInDim S512x1x1x256 (![0, 3] : Fin 2 → Fin S512x1x1x256.rank)
  bcast_S32x32x256_S1x32x32x256_1_2_3 : S32x32x256.BroadcastsInDim S1x32x32x256 (![1, 2, 3] : Fin 3 → Fin S1x32x32x256.rank)
  bcast_S1x32x32x256_S512x32x32x256_0_1_2_3 : S1x32x32x256.BroadcastsInDim S512x32x32x256 (![0, 1, 2, 3] : Fin 4 → Fin S512x32x32x256.rank)
  bcast_S512x1x1x256_S512x32x32x256_0_1_2_3 : S512x1x1x256.BroadcastsInDim S512x32x32x256 (![0, 1, 2, 3] : Fin 4 → Fin S512x32x32x256.rank)
  reducesTo_S512x32x32x256_S512x32x32_d3 : S512x32x32x256.ReducesTo [3] S512x32x32
  h_S_ : 0 < S_.numel
  bcast_S_S512x32x32 : S_.BroadcastsInDim S512x32x32 (![] : Fin 0 → Fin S512x32x32.rank)

variable [Facts₀]

class Facts : Prop extends Facts₀ where

variable [Facts]
-- ==== Proof.SquaredDistance.lean ====
/-
  The squared distance of two real rows, and the two ways the programs spell the Gaussian exponent of it.

  For real rows a and b of one length,
      Σ (b k − a k)² = Σ a k² + Σ b k² − 2 · Σ a k · b k,
  and the left side is a sum of squares, so it is not negative. One program forms the right side, clamps it at zero
  from below and multiplies by −1/2; the other forms the left side (added to a zero initial value), negates it and
  divides by 2. On the extended reals both are the real number −(Σ (b k − a k)²) / 2: the clamp does nothing to a
  number that is not negative, and dividing by 2 is multiplying by 1/2. The rows must be real: with an infinite
  entry the expansion has no meaning (∞ − ∞).

  The three float literals met on the way denote 2, −1/2 and 0.
-/
import Idealize.ShloMosaic.PureOps.Ideal
import Idealize.ShloMosaic.PureOps.Ideal.Laws

noncomputable section

open scoped BigOperators

namespace Cert.SqDist

open Idealize.ShloMosaic

/-- The pattern of `2.0` denotes the real 2. -/
theorem ofBits_two : Ideal.ofBits .f32 0x40000000#32 = ((2 : ℝ) : EReal) := by
  simp [Ideal.ofBits, Ideal.ieee, -EReal.coe_mul]; norm_num

/-- The pattern of `-0.5` denotes the real −1/2. -/
theorem ofBits_neg_half : Ideal.ofBits .f32 0xBF000000#32 = ((-(1 / 2) : ℝ) : EReal) := by
  simp [Ideal.ofBits, Ideal.ieee, -EReal.coe_mul]; norm_num

/-- A finite sum of real numbers, each read as an extended real, is the real sum read as one. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The expansion of the squared distance, over the reals. -/
theorem expand {n : Nat} (a b : Fin n → ℝ) :
    ∑ k, (b k - a k) * (b k - a k) = (∑ k, a k * a k) + (∑ k, b k * b k) - 2 * ∑ k, a k * b k := by
  rw [Finset.mul_sum, ← Finset.sum_add_distrib, ← Finset.sum_sub_distrib]
  exact Finset.sum_congr rfl fun k _ => by ring

/-- A sum of squares is not negative. -/
theorem sq_nonneg {n : Nat} (a b : Fin n → ℝ) : 0 ≤ ∑ k, (b k - a k) * (b k - a k) :=
  Finset.sum_nonneg fun k _ => mul_self_nonneg _

/-- The exponent as the program that expands the square spells it: row sums and the inner product, combined, clamped at
    zero, times −1/2. -/
def expanded {n : Nat} (a b : Fin n → EReal) : EReal :=
  max (((∑ k, a k * a k) + (∑ k, b k * b k)) - Ideal.ofBits .f32 0x40000000#32 * (∑ k, a k * b k))
      (Ideal.ofBits .f32 0x00000000#32) * Ideal.ofBits .f32 0xBF000000#32

/-- The exponent as the program that subtracts first spells it: the sum of squared differences onto a zero initial
    value, negated, divided by 2. -/
def direct {n : Nat} (a b : Fin n → EReal) : EReal :=
  Ideal.div (-(Ideal.ofBits .f32 0x00000000#32 + ∑ k, (b k - a k) * (b k - a k))) (Ideal.ofBits .f32 0x40000000#32)

/-- The map value from the exponent `e`: √((1 − exp e) + ε), the literal 1 and the small literal ε as both programs spell them. -/
def cim (e : EReal) : EReal :=
  Ideal.sqrt ((Ideal.ofBits .f32 0x3F800000#32 - Ideal.exp e) + Ideal.ofBits .f32 0x322BCC77#32)

/-- On real rows the two spellings are one number, −(Σ (b k − a k)²) / 2. -/
theorem expanded_eq_direct {n : Nat} (a b : Fin n → ℝ) :
    expanded (fun k => (a k : EReal)) (fun k => (b k : EReal)) = direct (fun k => (a k : EReal)) (fun k => (b k : EReal)) := by
  unfold expanded direct
  rw [Ideal.ofBits_zero_f32, ofBits_two, ofBits_neg_half, Ideal.div_coe (by norm_num : (2 : ℝ) ≠ 0)]
  simp only [← EReal.coe_mul, ← EReal.coe_sub, coe_sum, ← EReal.coe_add, ← EReal.coe_neg, zero_add]
  rw [← expand a b, max_eq_left (by exact_mod_cast sq_nonneg a b)]
  refine congrArg Real.toEReal ?_
  ring

end Cert.SqDist

end
-- ==== Proof.KernelCell.lean ====
/-
  One entry of the block the kernel body stores, read as a number.

  The body loads a block x of 64 rows and the whole table w of 1024 rows, each row of 256 entries, and stores a 64 × 1024
  block. Its entry (p, q) depends on row p of x and row q of w only: the row sum of squares of x (a lane sum, kept as a
  column and spread over the columns), the row sum of squares of w (a lane sum, laid as a row and spread over the rows),
  and the inner product of the two rows (the matrix product of x with w transposed, the narrowing to bfloat16 being the
  identity on extended reals), combined as Σx² + Σw² − 2·Σxw, clamped at zero, times −1/2, then √((1 − exp ·) + ε).
-/
import proofs.«106103_g9208409883400_cont_sun_m_1029_7_alg».proof.Proof.Gen.KernelIdeal.Skeleton
import proofs.«106103_g9208409883400_cont_sun_m_1029_7_alg».proof.Proof.SquaredDistance
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Cell

open Idealize.ShloMosaic Idealize.ShloMosaic.ValueIdx Cert.KernelIdeal Cert.KernelIdeal.Gen

/-! ## Two layout steps: a vector kept as a column, and a column spread over the columns -/

/-- An `[a]` array cast to `[a, 1]` reads, at `(p, u)`, the operand at `p`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A lane sum and the matrix product, at an index -/

/-- The lane sum of an `[n, K]` array at row `p` is the sum of that row. -/
theorem laneSum_apply {n K : ℕ} (v : FVec Ideal ⟨2, ![n, K]⟩ .f32) (h : (⟨2, ![n, K]⟩ : Shape).Reduces [1] ⟨1, ![n]⟩)
    (hφ : FKind.Formats .f32) (hacc : (0x00000000#32 : BitVec (FTy.bits .f32)) = FKind.add.neutral .f32 hφ) (p : Fin n) :
    multiReduction .add [1] ⟨1, ![n]⟩ v 0x00000000#32 h hφ hacc (ix1 p) = ∑ k : Fin K, v (ix2 p k) := by
  refine (Ideal.multiReduction_add_single v _ h hφ hacc (ix1 p)).trans ?_
  exact Finset.sum_congr rfl fun k _ => congrArg v (funext fun a => Fin.ext (by
    match a with
    | ⟨0, _⟩ => rfl
    | ⟨1, _⟩ => rfl))

theorem lhs_0 (i : S64x1024.Idx) (q : dot_S64x256_S1024x256_S64x1024_1_1_0_0_n_n.contr.Idx) :
    (dot_S64x256_S1024x256_S64x1024_1_1_0_0_n_n.lhsIdx i q 0).val = (i 0).val := by
  unfold DotDims.lhsIdx
  rw [dif_neg (show ¬(0 : Fin S64x256.rank) ∈ dot_S64x256_S1024x256_S64x1024_1_1_0_0_n_n.lhsBatch by decide),
    dif_pos (show (0 : Fin S64x256.rank) ∈ dot_S64x256_S1024x256_S64x1024_1_1_0_0_n_n.lhsNonContracting by decide)]
  rfl
theorem lhs_1 (i : S64x1024.Idx) (q : dot_S64x256_S1024x256_S64x1024_1_1_0_0_n_n.contr.Idx) :
    (dot_S64x256_S1024x256_S64x1024_1_1_0_0_n_n.lhsIdx i q 1).val = (q ⟨0, by decide⟩).val :=
  dot_S64x256_S1024x256_S64x1024_1_1_0_0_n_n.lhsIdx_val_of_single rfl i q
theorem rhs_0 (i : S64x1024.Idx) (q : dot_S64x256_S1024x256_S64x1024_1_1_0_0_n_n.contr.Idx) :
    (dot_S64x256_S1024x256_S64x1024_1_1_0_0_n_n.rhsIdx i q 0).val = (i 1).val := by
  unfold DotDims.rhsIdx
  rw [dif_neg (show ¬(0 : Fin S1024x256.rank) ∈ dot_S64x256_S1024x256_S64x1024_1_1_0_0_n_n.rhsBatch by decide),
    dif_pos (show (0 : Fin S1024x256.rank) ∈ dot_S64x256_S1024x256_S64x1024_1_1_0_0_n_n.rhsNonContracting by decide)]
  rfl
theorem rhs_1 (i : S64x1024.Idx) (q : dot_S64x256_S1024x256_S64x1024_1_1_0_0_n_n.contr.Idx) :
    (dot_S64x256_S1024x256_S64x1024_1_1_0_0_n_n.rhsIdx i q 1).val = (q ⟨0, by decide⟩).val :=
  dot_S64x256_S1024x256_S64x1024_1_1_0_0_n_n.rhsIdx_val_of_single rfl i q

/-- The product of a `[64, 256]` array with the transpose of a `[1024, 256]` one, onto zero, at `(p, q)`: the inner
    product of row `p` of the first with row `q` of the second. -/
theorem rowsDot_apply (l : FVec Ideal S64x256 .bf16) (r : FVec Ideal S1024x256 .bf16) (p : Fin 64) (q : Fin 1024) :
    matmul dot_S64x256_S1024x256_S64x1024_1_1_0_0_n_n none l r (constant (F := Ideal) S64x1024 .f32 0x00000000#32) (ix2 p q)
      = ∑ k : Fin 256, l (ix2 p k) * r (ix2 q k) := by
  simp only [matmul]
  rw [Ideal.matmul_constant_zero_apply,
    ← Equiv.sum_comp (ValueIdx.contrEquiv1 dot_S64x256_S1024x256_S64x1024_1_1_0_0_n_n 256 rfl rfl).symm]
  refine Finset.sum_congr rfl fun k _ => ?_
  have hk := ValueIdx.contrEquiv1_symm_val dot_S64x256_S1024x256_S64x1024_1_1_0_0_n_n 256 rfl rfl k
  have el : dot_S64x256_S1024x256_S64x1024_1_1_0_0_n_n.lhsIdx (ix2 p q)
      ((ValueIdx.contrEquiv1 dot_S64x256_S1024x256_S64x1024_1_1_0_0_n_n 256 rfl rfl).symm k) = ix2 p k :=
    funext fun a => Fin.ext (by
      match a with
      | ⟨0, _⟩ => exact lhs_0 _ _
      | ⟨1, _⟩ => exact (lhs_1 _ _).trans hk)
  have er : dot_S64x256_S1024x256_S64x1024_1_1_0_0_n_n.rhsIdx (ix2 p q)
      ((ValueIdx.contrEquiv1 dot_S64x256_S1024x256_S64x1024_1_1_0_0_n_n 256 rfl rfl).symm k) = ix2 q k :=
    funext fun a => Fin.ext (by
      match a with
      | ⟨0, _⟩ => exact rhs_0 _ _
      | ⟨1, _⟩ => exact (rhs_1 _ _).trans hk)
  rw [el, er]

/-! ## The three sums of the body, at an entry of the stored block -/

/-- The row sums of squares of the 64-row block, kept as a column and spread over the 1024 columns. -/
theorem xSq_apply (x : FVec Ideal S64x256 .f32) (h : S64x256.Reduces [1] S64) (hφ : FKind.Formats .f32)
    (hacc : (0x00000000#32 : BitVec (FTy.bits .f32)) = FKind.add.neutral .f32 hφ)
    (hc : S64.ShapeCasts S64x1) (hb : S64x1.Broadcasts S64x1024) (p : Fin 64) (q : Fin 1024) :
    broadcastTo S64x1024 (shapeCast S64x1 (multiReduction .add [1] S64 (mulf x x) 0x00000000#32 h hφ hacc) hc) hb (ix2 p q)
      = ∑ k : Fin 256, x (ix2 p k) * x (ix2 p k) := by
  refine (broadcastTo_a1_ab_apply _ hb p q).trans ?_
  refine (shapeCast_a_a1_apply _ hc p 0).trans ?_
  exact laneSum_apply (mulf x x) h hφ hacc p

/-- The row sums of squares of the 1024-row table, laid as a row and spread over the 64 rows. -/
theorem wSq_apply (w : FVec Ideal S1024x256 .f32) (h : S1024x256.Reduces [1] S1024) (hφ : FKind.Formats .f32)
    (hacc : (0x00000000#32 : BitVec (FTy.bits .f32)) = FKind.add.neutral .f32 hφ)
    (hc : S1024.ShapeCasts S1x1024) (hb : S1x1024.Broadcasts S64x1024) (p : Fin 64) (q : Fin 1024) :
    broadcastTo S64x1024 (shapeCast S1x1024 (multiReduction .add [1] S1024 (mulf w w) 0x00000000#32 h hφ hacc) hc) hb (ix2 p q)
      = ∑ k : Fin 256, w (ix2 q k) * w (ix2 q k) := by
  refine (broadcastTo_1b_ab_apply _ hb p q).trans ?_
  refine (shapeCast_a_1a_apply _ hc 0 q).trans ?_
  exact laneSum_apply (mulf w w) h hφ hacc q

/-- ENTRY (p, q) OF THE STORED BLOCK: the map value from the expanded exponent of row `p` of the loaded block and row
    `q` of the loaded table. -/
theorem pay_apply (x : Vec Ideal S64x256 .f32) (w : Vec Ideal S1024x256 .f32) (p : Fin 64) (q : Fin 1024) :
    k0_pay1 (F := Ideal) x w (ix2 p q)
      = Cert.SqDist.cim (Cert.SqDist.expanded (fun k : Fin 256 => x (ix2 p k)) (fun k : Fin 256 => w (ix2 q k))) := by
  unfold k0_pay1 Cert.SqDist.cim Cert.SqDist.expanded
  simp only [shapeCast_self]
  have hd : matmul dot_S64x256_S1024x256_S64x1024_1_1_0_0_n_n none (truncf .bf16 x bitsLt_bf16_f32)
      (truncf .bf16 w bitsLt_bf16_f32) (constant (F := Ideal) S64x1024 .f32 0x00000000#32) (ix2 p q)
      = ∑ k : Fin 256, x (ix2 p k) * w (ix2 q k) :=
    rowsDot_apply (truncf .bf16 x bitsLt_bf16_f32) (truncf .bf16 w bitsLt_bf16_f32) p q
  rw [← xSq_apply x reduces_S64x256_S64 (.inl rfl) rfl shapeCasts_S64_S64x1 broadcasts_S64x1_S64x1024 p q,
    ← wSq_apply w reduces_S1024x256_S1024 (.inl rfl) rfl shapeCasts_S1024_S1x1024 broadcasts_S1x1024_S64x1024 p q,
    ← hd]
  rfl

end Cert.KernelIdeal.Cell

end
-- ==== Proof.KernelArray.lean ====
/-
  What the kernel program leaves in its result, as one function of the two inputs.

  The region's output is a 512 × 1024 array written 64 rows at a time: grid point t takes rows 64·t … 64·t + 63 of x and the
  whole flattened table, and writes rows 64·t … 64·t + 63 of the output. So entry (i, n) of the region's array is the map
  value from row i of x and row n of the flattened table, whichever point wrote it, and the eight blocks fill the array.
  Before the region the 32 × 32 × 256 table is flattened to 1024 × 256 (row n is position (n / 32, n % 32)); after it the
  512 × 1024 array is folded to 512 × 32 × 32 (entry (b, r, c) is entry (b, 32·r + c)). Hence entry (b, r, c) of the result is
  the map value from row b of x and row (r, c) of the table.
-/
import proofs.«106103_g9208409883400_cont_sun_m_1029_7_alg».proof.Proof.Gen.KernelIdeal.Frame
import proofs.«106103_g9208409883400_cont_sun_m_1029_7_alg».proof.Proof.KernelCell
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.Arr

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The region's array -/

/-- Entry `(i, n)` of the region's array: the map value from row `i` of `X` and row `n` of the flattened table `W`. -/
def regionMap (X : Vec Ideal S512x256 .f32) (W : Vec Ideal S1024x256 .f32) : S512x1024.Idx → EReal := fun i =>
  Cert.SqDist.cim (Cert.SqDist.expanded (fun k : Fin 256 => X (ix2 (⟨(i 0).val, idx2_lt0 i⟩ : Fin 512) k))
    (fun k : Fin 256 => W (ix2 (⟨(i 1).val, idx2_lt1 i⟩ : Fin 1024) k)))

/-- An entry of a stored block is the entry of the region's array it lands on, when the loaded rows are the rows of the
    arrays that entry depends on. -/
theorem block_entry (X : Vec Ideal S512x256 .f32) (W : Vec Ideal S1024x256 .f32) (x0 : Vec Ideal S64x256 .f32)
    (x1 : Vec Ideal S1024x256 .f32) (j : S64x1024.Idx) (i : S512x1024.Idx)
    (hx : ∀ k : Fin 256, x0 (ix2 (⟨(j 0).val, idx2_lt0 j⟩ : Fin 64) k) = X (ix2 (⟨(i 0).val, idx2_lt0 i⟩ : Fin 512) k))
    (hw : ∀ k : Fin 256, x1 (ix2 (⟨(j 1).val, idx2_lt1 j⟩ : Fin 1024) k) = W (ix2 (⟨(i 1).val, idx2_lt1 i⟩ : Fin 1024) k)) :
    k0_pay1 (F := Ideal) x0 x1 j = regionMap X W i := by
  have hj : j = ix2 (⟨(j 0).val, idx2_lt0 j⟩ : Fin 64) (⟨(j 1).val, idx2_lt1 j⟩ : Fin 1024) := eq_ix2 j
  rw [hj, Cell.pay_apply]
  unfold regionMap
  simp only [hx, hw]

theorem hz : (![0, 0] : Fin 2 → Nat) = fun _ => 0 := funext fun a => by fin_cases a <;> rfl

/-- Where the three windows' blocks lie, decided over the eight grid points: the block of `x` and the output block move down
    together, one block a point; the table's one block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the region's array of `x` and the flattened table as the region finds them. -/
theorem flushed_eq (c : Dev nD) (t : Fin cfg0.N) :
    (dats m 0 c).flushed 2 t
      = ((cfg0.win 2).blk t).view.read (Elt Ideal) (regionMap (V m c main_arg0) (V m c main_v0)) := by
  show (cfg0.win 2).cut (grid0.coords t) ((dats m 0 c).after 2 t) = _
  rw [after0_2]
  unfold out0_2
  rw [View.canon_unit_zero hz]
  simp only [View.ld_unit_zero (S := S64x256) hz, View.ld_unit_zero (S := S1024x256) hz]
  obtain ⟨e00, e01, e10, e11, e20, e21⟩ := idx_facts t
  funext j
  show k0_pay1 (F := Ideal) (iblk m c 0 t) (iblk m c 1 t) j
    = regionMap (V m c main_arg0) (V m c main_v0) (((cfg0.win 2).blk t).view.emb j)
  refine block_entry _ _ _ _ _ _ (fun k => ?_) (fun k => ?_)
  · show V m c main_arg0 (((cfg0.win 0).blk t).view.emb _) = V m c main_arg0 _
    refine congrArg (V m c main_arg0) (funext fun a => Fin.ext ?_)
    match a with
    | ⟨0, _⟩ =>
      show win0_0.index t (0 : Fin 2) * 64 + 1 * (j 0).val = win0_2.index t (0 : Fin 2) * 64 + 1 * (j 0).val
      omega
    | ⟨1, _⟩ =>
      show win0_0.index t (1 : Fin 2) * 256 + 1 * k.val = k.val
      omega
  · show V m c main_v0 (((cfg0.win 1).blk t).view.emb _) = V m c main_v0 _
    refine congrArg (V m c main_v0) (funext fun a => Fin.ext ?_)
    match a with
    | ⟨0, _⟩ =>
      show win0_1.index t (0 : Fin 2) * 1024 + 1 * (j 1).val = win0_2.index t (1 : Fin 2) * 1024 + 1 * (j 1).val
      omega
    | ⟨1, _⟩ =>
      show win0_1.index t (1 : Fin 2) * 256 + 1 * k.val = k.val
      omega

/-- An index of the region's array is in point `t`'s block iff each coordinate is in the block's range on its axis. -/
theorem mem_blk (t : Fin cfg0.N) (i : S512x1024.Idx) :
    i ∈ ((cfg0.win 2).blk t).view.set ↔ ∀ a : Fin 2, win0_2.index t a * S64x1024.size a ≤ (i a).val
      ∧ (i a).val < win0_2.index t a * S64x1024.size a + S64x1024.size a := by
  show i ∈ ((View.whole main_v1).slice (win0_2.rect t)).set ↔ _
  rw [View.set_slice_whole, Rect.mem_set_unit]
  exact Iff.rfl

/-- Row `i` of the region's array is written by point `i / 64`: the eight blocks fill the array. -/
theorem cover (i : S512x1024.Idx) :
    ∃ t : Fin cfg0.N, (cfg0.win 2).flush t = true ∧ i ∈ ((cfg0.win 2).blk t).view.set := by
  have hi0 : (i 0).val < 512 := (i 0).isLt
  have hi1 : (i 1).val < 1024 := (i 1).isLt
  have hN : cfg0.N = 8 := N_0
  obtain ⟨t, ht⟩ : ∃ t : Fin cfg0.N, t.val = (i 0).val / 64 := ⟨⟨(i 0).val / 64, by rw [hN]; omega⟩, rfl⟩
  obtain ⟨-, -, -, -, e20, e21⟩ := idx_facts t
  refine ⟨t, flush0_2 t, ?_⟩
  rw [mem_blk]
  intro a
  match a with
  | ⟨0, _⟩ =>
    show win0_2.index t (0 : Fin 2) * 64 ≤ (i 0).val ∧ (i 0).val < win0_2.index t (0 : Fin 2) * 64 + 64
    omega
  | ⟨1, _⟩ =>
    show win0_2.index t (1 : Fin 2) * 1024 ≤ (i 1).val ∧ (i 1).val < win0_2.index t (1 : Fin 2) * 1024 + 1024
    omega

/-- THE REGION'S ARRAY after the run. -/
theorem final (c : Dev nD) : (dats m 0 c).arrAt 2 cfg0.N = regionMap (V m c main_arg0) (V m c main_v0) :=
  (dats m 0 c).arrAt_eq_of_cover 2 _ (fun t _ => flushed_eq m c t) cover

/-! ## The table flattened before the region, the result folded after it -/

/-- The region finds the table flattened. -/
theorem table_flat (c : Dev nD) :
    (V m c main_v0 : S1024x256.Idx → EReal)
      = shapeCast S1024x256 (m ((c : Thread nD τ).loc main_arg1)) shapeCasts_S32x32x256_S1024x256 := by
  show StableHlo.after hostOps0 (fun b => m (c, b)) (Proc.devRef .tc main_v0) = _
  after_results
  rfl

/-- The program's result as one function of its two inputs. -/
def resultMap (x : Vec Ideal S512x256 .f32) (w : Vec Ideal S32x32x256 .f32) : S512x32x32.Idx → EReal :=
  shapeCast S512x32x32 (regionMap x (shapeCast S1024x256 w shapeCasts_S32x32x256_S1024x256)) shapeCasts_S512x1024_S512x32x32

/-- After the line that follows the region the result buffer holds `resultMap` of the inputs as launched. -/
theorem result_eq (c : Dev nD) :
    Pipeline.afterTail₀ cfgs (dats m) 0 (V0 m) [hostOps1] c main_v2
      = resultMap (m ((c : Thread nD τ).loc main_arg0)) (m ((c : Thread nD τ).loc main_arg1)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = regionMap (m ((c : Thread nD τ).loc main_arg0))
          (shapeCast S1024x256 (m ((c : Thread nD τ).loc main_arg1)) shapeCasts_S32x32x256_S1024x256) :=
    ((Pipeline.withArrays_arr spec0 launch0.win.arr_inj c _ _ 2).trans (final m c)).trans (by
      rw [V_main_arg0, table_flat])
  rw [hw]
  rfl

/-- ENTRY (b, r, c) OF THE RESULT: the map value from row `b` of `x` and row `(r, c)` of the table. -/
theorem resultMap_apply (x : Vec Ideal S512x256 .f32) (w : Vec Ideal S32x32x256 .f32) (b : Fin 512) (r c : Fin 32) :
    resultMap x w (ix3 b r c)
      = Cert.SqDist.cim (Cert.SqDist.expanded (fun k : Fin 256 => x (ix2 b k)) (fun k : Fin 256 => w (ix3 r c k))) := by
  have hr : r.val < 32 := r.isLt
  have hc : c.val < 32 := c.isLt
  unfold resultMap
  refine (shapeCast_apply _ shapeCasts_S512x1024_S512x32x32 (ix3 b r c)
    (ix2 b (⟨32 * r.val + c.val, by omega⟩ : Fin 1024)) (by
      rw [Shape.rowMajor_val_two, Shape.rowMajor_val_three]
      show b.val * 1024 + (32 * r.val + c.val) = (b.val * 32 + r.val) * 32 + c.val
      omega)).trans ?_
  unfold regionMap
  refine congrArg Cert.SqDist.cim (congrArg (Cert.SqDist.expanded _) (funext fun k => ?_))
  refine shapeCast_apply w shapeCasts_S32x32x256_S1024x256 _ (ix3 r c k) ?_
  rw [Shape.rowMajor_val_two, Shape.rowMajor_val_three]
  show (r.val * 32 + c.val) * 256 + k.val = (32 * r.val + c.val) * 256 + k.val
  omega

/-! ## The run -/

/-- Every weakly fair execution of the kernel program ends with its result buffer at `resultMap` of the inputs as
    launched, and the inputs unchanged. -/
theorem run : θ_run defs (onTc (τ := τ) (main (F := Ideal))) ⟨m, fun _ => 0, ρ⟩ fun r => ∀ c : Dev nD,
      r.2.mem ((c.tc : Thread nD τ).loc main_v2)
        = resultMap (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Arr

end
-- ==== Proof.ReferenceCell.lean ====
/-
  One entry of the reference's result, read as a number.

  The reference spreads x over the 32 × 32 table positions and the table over the 512 rows of x, subtracts, squares,
  sums over the 256 entries onto a zero initial value, negates, divides by 2, and takes √((1 − exp ·) + ε). Its entry
  (b, r, c) depends on row b of x and row (r, c) of the table only.
-/
import proofs.«106103_g9208409883400_cont_sun_m_1029_7_alg».proof.Proof.Gen.ReferenceIdeal.Read
import proofs.«106103_g9208409883400_cont_sun_m_1029_7_alg».proof.Proof.SquaredDistance
import Idealize.ShloMosaic.Lib.ValueIdx

noncomputable section

open scoped BigOperators

namespace Cert.ReferenceIdeal.Cell

open Idealize.ShloMosaic Idealize.ShloMosaic.ValueIdx Cert.ReferenceIdeal Cert.ReferenceIdeal.Read

/-- ENTRY (b, r, c) OF THE REFERENCE'S RESULT: the map value from the exponent formed from the squared differences of row
    `b` of `x` and row `(r, c)` of the table. -/
theorem ref_apply (x : (⟨S512x256, .f32⟩ : BufTy).Contents (Elt Ideal)) (w : (⟨S32x32x256, .f32⟩ : BufTy).Contents (Elt Ideal))
    (b : Fin 512) (r c : Fin 32) :
    val_main_v15 (F := Ideal) x w (ix3 b r c)
      = Cert.SqDist.cim (Cert.SqDist.direct (fun k : Fin 256 => x (ix2 b k)) (fun k : Fin 256 => w (ix3 r c k))) := by
  have ex : ∀ k : Fin 256, idx_main_v0 (idx_main_v3 (idx_main_v6 (ix3 b r c) k)) = ix2 b k := fun k =>
    funext fun a => Fin.ext (by match a with | ⟨0, _⟩ => rfl | ⟨1, _⟩ => rfl)
  have ew : ∀ k : Fin 256, idx_main_v1 (idx_main_v2 (idx_main_v6 (ix3 b r c) k)) = ix3 r c k := fun k =>
    funext fun a => Fin.ext (by match a with | ⟨0, _⟩ => rfl | ⟨1, _⟩ => rfl | ⟨2, _⟩ => rfl)
  rw [val_main_v15_apply, val_main_v14_apply, val_main_v12_apply, val_main_v13_apply, val_main_cst_2_apply,
    val_main_v11_apply, val_main_cst_1_apply, val_main_v10_apply, val_main_v9_apply, val_main_v7_apply,
    val_main_v8_apply, val_main_cst_0_apply, val_main_v6_apply, val_main_cst_apply]
  simp only [val_main_v5_apply, val_main_v4_apply, val_main_v2_apply, val_main_v1_apply, val_main_v3_apply,
    val_main_v0_apply, ex, ew]
  rfl

end Cert.ReferenceIdeal.Cell

end
-- ==== Proof.Finite.lean ====
/-
  Every entry of both inputs is a real number.

  The precondition says: the absolute value of every entry of x is below +∞, and so is that of every entry of the table,
  the two facts joined by "and", each a conjunction over all indices. An extended real whose absolute value is below +∞
  is neither infinity, so it is a real number.
-/
import proofs.«106103_g9208409883400_cont_sun_m_1029_7_alg».proof.Pre_finite_inputs
import proofs.«106103_g9208409883400_cont_sun_m_1029_7_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- The pattern of +∞ denotes the top of the extended reals. -/
theorem ofBits_inf : Ideal.ofBits .f32 0x7F800000#32 = ⊤ := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is 1 only when the Boolean is true. -/
theorem ofBool_one {b : Bool} (h : BitVec.ofBool b = 1#1) : b = true := by
  cases b
  · exact absurd h (by decide)
  · rfl

/-- The comparison the precondition makes at one entry, read back. -/
theorem real_of_cmp (x : EReal) (e : Ideal.cmp .olt (max x (-x)) (Ideal.ofBits .f32 0x7F800000#32) = 1#1) :
    ∃ r : ℝ, x = (r : EReal) := by
  rw [ofBits_inf] at e
  have hb : decide (max x (-x) < (⊤ : EReal)) = true := ofBool_one e
  exact real_of_abs_lt_top x (of_decide_eq_true hb)

/-- UNDER THE PRECONDITION every entry of `x` and every entry of the table is a real number. -/
theorem entries_real (x : FVec Ideal Cert.Pre_finite_inputs.S512x256 .f32) (w : FVec Ideal Cert.Pre_finite_inputs.S32x32x256 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ix0
  dsimp only [Cert.Pre_finite_inputs.fn] at h0
  obtain ⟨hx, hw⟩ := IntOp.andi_eq_one.1 h0
  exact ⟨fun i => real_of_cmp (x i) (Host.reduce_andi_all _ _ _ _ _ hx i),
    fun i => real_of_cmp (w i) (Host.reduce_andi_all _ _ _ _ _ hw i)⟩

end Cert.Finite

end
-- ==== Proof.lean ====
/-
  The kernel computes, for a batch x of 512 rows and a 32 × 32 table of rows, each row of 256 numbers, the map
      cim[b, r, c] = √((1 − exp(−‖x[b] − w[r, c]‖² / 2)) + ε),
  by expanding the squared distance as ‖x[b]‖² + ‖w[r, c]‖² − 2·⟨x[b], w[r, c]⟩: row sums of squares and one matrix product
  of x with the flattened table, the combination clamped at zero and multiplied by −1/2. The reference subtracts first,
  squares, sums, negates and divides by 2. On extended reals the narrowing of the product's operands to bfloat16 is the
  identity and sums have no order, so both programs apply the same √((1 − exp ·) + ε) to an exponent; and when every
  entry of x and of the table is a real number — which is what the precondition says — the two exponents are the same
  real number −‖x[b] − w[r, c]‖² / 2: the expansion is an identity of real numbers, a sum of squares is not negative so
  the clamp does nothing, and dividing by 2 is multiplying by 1/2.

  The kernel's result as a function of the inputs is read off its blocks (eight blocks of 64 rows fill the 512 × 1024 array,
  which is then folded to 512 × 32 × 32); the reference's is its last stage read at an index. The three programs run and
  leave their inputs alone, and nothing was rewritten between the kernel and its idealization.
-/
import proofs.«106103_g9208409883400_cont_sun_m_1029_7_alg».proof.Defs
import proofs.«106103_g9208409883400_cont_sun_m_1029_7_alg».proof.Proof.Gen.Kernel
import proofs.«106103_g9208409883400_cont_sun_m_1029_7_alg».proof.Proof.Gen.Kernel.Frame
import proofs.«106103_g9208409883400_cont_sun_m_1029_7_alg».proof.Proof.Gen.KernelIdeal
import proofs.«106103_g9208409883400_cont_sun_m_1029_7_alg».proof.Proof.Gen.KernelIdeal.Frame
import proofs.«106103_g9208409883400_cont_sun_m_1029_7_alg».proof.Proof.Gen.ReferenceIdeal
import proofs.«106103_g9208409883400_cont_sun_m_1029_7_alg».proof.Proof.Gen.Pre_finite_inputs
import proofs.«106103_g9208409883400_cont_sun_m_1029_7_alg».proof.Proof.Gen.ReferenceIdeal.Run
import proofs.«106103_g9208409883400_cont_sun_m_1029_7_alg».proof.Proof.Gen.ReferenceIdeal.Read
import proofs.«106103_g9208409883400_cont_sun_m_1029_7_alg».proof.Proof.SquaredDistance
import proofs.«106103_g9208409883400_cont_sun_m_1029_7_alg».proof.Proof.KernelArray
import proofs.«106103_g9208409883400_cont_sun_m_1029_7_alg».proof.Proof.ReferenceCell
import proofs.«106103_g9208409883400_cont_sun_m_1029_7_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- On inputs whose entries are all real numbers the kernel's result function is the reference's last stage: entry by
    entry both are the map value of one exponent, −(Σ (w k − x k)²) / 2 over the two rows the entry depends on. -/
theorem same_map (x : FVec Ideal Cert.KernelIdeal.S512x256 .f32) (w : FVec Ideal Cert.KernelIdeal.S32x32x256 .f32)
    (hx : ∀ i, ∃ r : ℝ, x i = (r : EReal)) (hw : ∀ i, ∃ r : ℝ, w i = (r : EReal)) :
    Cert.KernelIdeal.Arr.resultMap x w = Cert.ReferenceIdeal.Read.val_main_v15 (F := Ideal) x w := by
  funext i
  obtain ⟨b, r, c, rfl⟩ : ∃ (b : Fin 512) (r c : Fin 32), i = ix3 b r c := ⟨i 0, i 1, i 2, eq_ix3 i⟩
  rw [Cert.KernelIdeal.Arr.resultMap_apply, Cert.ReferenceIdeal.Cell.ref_apply]
  choose a ha using hx
  choose d hd using hw
  simp only [ha, hd]
  exact congrArg Cert.SqDist.cim
    (Cert.SqDist.expanded_eq_direct (fun k : Fin 256 => a (ix2 b k)) (fun k : Fin 256 => d (ix3 r c k)))

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the same map of inputs that agree and are real. -/
theorem algebraic : Cert.algebraic_KernelIdeal_ReferenceIdeal := by
  intro m ρ m' ρ' hpre hagree
  refine ⟨fun c => Cert.KernelIdeal.Arr.resultMap (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2]
  obtain ⟨hx, hw⟩ := Cert.Finite.entries_real _ _ (hpre c)
  exact (same_map _ _ hx hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
